-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x128 : Shape := ⟨3, ![8, 32768, 128]⟩
abbrev S8x128x128 : Shape := ⟨3, ![8, 128, 128]⟩
abbrev S8x128 : Shape := ⟨2, ![8, 128]⟩
abbrev S_ : Shape := ⟨0, ![]⟩

class Facts : Prop where
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S8x32768x128 .f32) (main_arg1 : FVec F S8x128x128 .f32) (main_arg2 : FVec F S8x128 .f32) : IVec S_ 1 :=
  let main_v0 : FVec F S8x32768x128 .f32 := Host.absf main_arg0
  let main_cst : FVec F S_ .f32 := constant S_ .f32 0x7F800000#32
  let main_v1 : FVec F S8x32768x128 .f32 := broadcastInDim S8x32768x128 ![] bcast_S_S8x32768x128 main_cst
  let main_v2 : IVec S8x32768x128 1 := cmpf .olt main_v0 main_v1
  let main_c : IVec S_ 1 := constantI S_ 1 1#1
  let main_v3 : IVec S_ 1 := (fun x v => Host.reduce IntOp.andi x v reducesTo_S8x32768x128_S_d0_1_2 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  main_v13
-- ==== Kernel.lean ====
abbrev S8x32768x128 : Shape := ⟨3, ![8, 32768, 128]⟩
abbrev S8x128x128 : Shape := ⟨3, ![8, 128, 128]⟩
abbrev S8x128 : Shape := ⟨2, ![8, 128]⟩
abbrev S8x1x128 : Shape := ⟨3, ![8, 1, 128]⟩
abbrev S1x8192x128 : Shape := ⟨3, ![1, 8192, 128]⟩
abbrev S1x128x128 : Shape := ⟨3, ![1, 128, 128]⟩
abbrev S1x1x128 : Shape := ⟨3, ![1, 1, 128]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S8x32768x128, .f32⟩
  | .hbm, ⟨1, _⟩ => ⟨S8x128x128, .f32⟩
  | .hbm, ⟨2, _⟩ => ⟨S8x128, .f32⟩
  | .hbm, ⟨3, _⟩ => ⟨S8x1x128, .f32⟩
  | .hbm, ⟨4, _⟩ => ⟨S8x32768x128, .f32⟩
  | .local _ .vmem, ⟨0, _⟩ => ⟨S1x8192x128, .f32⟩
  | .local _ .vmem, ⟨1, _⟩ => ⟨S1x8192x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S1x8192x128, .f32⟩
  | .local _ .vmem, ⟨7, _⟩ => ⟨S1x8192x128, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8x128_S8x1x128_0_2 : S8x128.BroadcastsInDim S8x1x128 (![0, 2] : Fin 2 → Fin S8x1x128.rank)
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  bitsLt_bf16_f32 : FTy.bits .bf16 < FTy.bits .f32
  shapeCasts_S128_S1x128 : S128.ShapeCasts S1x128
  broadcasts_S1x128_S8192x128 : S1x128.Broadcasts S8192x128
  shapeCasts_S8192x128_S1x8192x128 : S8192x128.ShapeCasts S1x8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S8x32768x128.size a
  hwx0_0 : ∀ i : grid0.Coords, EltTy.bits .f32 = 32 ∨ (Rect.block (s := S8x32768x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x128.size a ≤ S8x32768x128.size a
  hwx0_3 : ∀ i : grid0.Coords, EltTy.bits .f32 = 32 ∨ (Rect.block (s := S8x32768x128) S1x8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32768x128 : Shape := ⟨3, ![8, 32768, 128]⟩
abbrev S8x128x128 : Shape := ⟨3, ![8, 128, 128]⟩
abbrev S8x128 : Shape := ⟨2, ![8, 128]⟩
abbrev S8x1x128 : Shape := ⟨3, ![8, 1, 128]⟩

abbrev nBuf : Space → Nat
  | .hbm => 7
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S8x128x128, .f32⟩
  | .hbm, ⟨2, _⟩ => ⟨S8x128, .f32⟩
  | .hbm, ⟨3, _⟩ => ⟨S8x32768x128, .f32⟩
  | .hbm, ⟨4, _⟩ => ⟨S8x1x128, .f32⟩
  | .hbm, ⟨5, _⟩ => ⟨S8x32768x128, .f32⟩
  | .hbm, ⟨6, _⟩ => ⟨S8x32768x128, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x128_S8x1x128_0_2 : S8x128.BroadcastsInDim S8x1x128 (![0, 2] : Fin 2 → Fin S8x1x128.rank)
  bcast_S8x1x128_S8x32768x128_0_1_2 : S8x1x128.BroadcastsInDim S8x32768x128 (![0, 1, 2] : Fin 3 → Fin S8x32768x128.rank)
  dot_S8x32768x128_S8x128x128_S8x32768x128_2_1_1_2_0_0_wf : DotDims.WF S8x32768x128 S8x128x128 S8x32768x128 [2] [1] [1] [2] [0] [0]

variable [Facts₀]

def dot_S8x32768x128_S8x128x128_S8x32768x128_2_1_1_2_0_0 : DotDims S8x32768x128 S8x128x128 S8x32768x128 where
  lhsContracting := [2]
  rhsContracting := [1]
  lhsNonContracting := [1]
  rhsNonContracting := [2]
  lhsBatch := [0]
  rhsBatch := [0]
  wf := dot_S8x32768x128_S8x128x128_S8x32768x128_2_1_1_2_0_0_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Payload.lean ====
import proofs.«148535_j26414048870602_1_alg».proof.Proof.Gen.KernelIdeal.Skeleton
import proofs.«148535_j26414048870602_1_alg».proof.Proof.LibContract
import Idealize.ShloMosaic.Lib.Pipeline.Value
import Idealize.ShloMosaic.Lib.ValueLayout
import Idealize.ShloMosaic.Lib.ValueIdx

/-!
# What one grid step stores, entry by entry

A grid step holds one task's block of 8192 input rows `x : [1, 8192, 128]`, that task's weights `w : [1, 128, 128]` and
its bias `b : [1, 1, 128]`. The body drops the unit axes, multiplies the two matrices into a zero accumulator (the
narrowing of the operands to bf16 is the identity on the extended reals), adds the bias row to every row of the
product and puts the unit axis back. So entry `(0, r, q)` of what it stores is `(∑ k, x[0, r, k] · w[0, k, q]) + b[0, 0, q]`.
-/

noncomputable section

namespace Cert.TaskDense

open Idealize.ShloMosaic Idealize.ShloMosaic.ValueIdx Cert.KernelIdeal Cert.KernelIdeal.Gen

/-- The body's contraction record is the plain rank-2 contraction `[8192, 128] × [128, 128]`. -/
theorem dot_eq_plain : dot_S8192x128_S128x128_S8192x128_1_0_0_1_n_n = DotDims.plain 8192 128 128 := rfl

/-- The bias block `[1, 1, 128]` flattened to `[128]` reads, at `q`, entry `(0, 0, q)`. -/
theorem bias_flat_apply (v : Vec Ideal S1x1x128 .f32) (q : Fin 128) :
    shapeCast S128 v shapeCasts_S1x1x128_S128 (ix1 q) = v (ix3 (0 : Fin 1) (0 : Fin 1) q) :=
  shapeCast_apply v shapeCasts_S1x1x128_S128 _ _ (by
    rw [Shape.rowMajor_val_three, Shape.rowMajor_val_one]
    show (0 * 1 + 0) * 128 + q.val = q.val
    omega)

/-- Entry `(u, r, q)` of what the body stores: row `r` of the input block against column `q` of the weights, plus
    entry `q` of the bias. -/
theorem pay_apply (v0 : Vec Ideal S1x8192x128 .f32) (v2 : Vec Ideal S1x128x128 .f32) (v4 : Vec Ideal S1x1x128 .f32)
    (u : Fin 1) (r : Fin 8192) (q : Fin 128) :
    k0_pay1 (F := Ideal) v0 v2 v4 (ix3 u r q)
      = (∑ k : Fin 128, v0 (ix3 (0 : Fin 1) r k) * v2 (ix3 (0 : Fin 1) k q)) + v4 (ix3 (0 : Fin 1) (0 : Fin 1) q) := by
  unfold k0_pay1
  rw [shapeCast_ab_1ab_apply, addf_apply, broadcastTo_1b_ab_apply, shapeCast_a_1a_apply, bias_flat_apply, dot_eq_plain,
    Cert.LibDense.matmul_plain_zero_apply]
  refine congrArg (· + v4 (ix3 (0 : Fin 1) (0 : Fin 1) q)) (Finset.sum_congr rfl fun k _ => ?_)
  rw [truncf_apply, truncf_apply, shapeCast_1ab_ab_apply, shapeCast_1ab_ab_apply]

end Cert.TaskDense

end
-- ==== Proof.Spec.lean ====
import Idealize.ShloMosaic.PureOps.Ideal.Laws
import Idealize.ShloMosaic.Lib.ValueIdx

/-!
# Eight dense layers side by side, entry by entry

Task `t` of eight has its own input rows `x[t] : [32768, 128]`, its own weight matrix `w[t] : [128, 128]` and its own
bias row `b[t] : [128]`. The result is, on the extended reals,

  `out[t, r, o] = (∑ k, x[t, r, k] · w[t, k, o]) + b[t, o]`.

Both programs compute exactly this sum, in this order of its terms, so no law of the extended reals beyond the
definitions is needed and no input has to be finite.
-/

noncomputable section

namespace Cert.TaskDense

open Idealize.ShloMosaic Idealize.ShloMosaic.ValueIdx

/-- Entry `(t, r, o)` of the result: row `r` of task `t`'s inputs against column `o` of task `t`'s weights, plus
    entry `o` of task `t`'s bias. -/
def entry (x : FVec Ideal ⟨3, ![8, 32768, 128]⟩ .f32) (w : FVec Ideal ⟨3, ![8, 128, 128]⟩ .f32)
    (b : FVec Ideal ⟨2, ![8, 128]⟩ .f32) (t : Fin 8) (r : Fin 32768) (o : Fin 128) : EReal :=
  (∑ k : Fin 128, x (ix3 t r k) * w (ix3 t k o)) + b (ix2 t o)

/-- The whole result array. -/
def G (x : FVec Ideal ⟨3, ![8, 32768, 128]⟩ .f32) (w : FVec Ideal ⟨3, ![8, 128, 128]⟩ .f32)
    (b : FVec Ideal ⟨2, ![8, 128]⟩ .f32) : FVec Ideal ⟨3, ![8, 32768, 128]⟩ .f32 :=
  fun i => entry x w b (i 0) (i 1) (i 2)

theorem G_apply (x : FVec Ideal ⟨3, ![8, 32768, 128]⟩ .f32) (w : FVec Ideal ⟨3, ![8, 128, 128]⟩ .f32)
    (b : FVec Ideal ⟨2, ![8, 128]⟩ .f32) (t : Fin 8) (r : Fin 32768) (o : Fin 128) :
    G x w b (ix3 t r o) = (∑ k : Fin 128, x (ix3 t r k) * w (ix3 t k o)) + b (ix2 t o) := rfl

end Cert.TaskDense

end
-- ==== Proof.Blocks.lean ====
import proofs.«148535_j26414048870602_1_alg».proof.Proof.Gen.KernelIdeal.Value
import proofs.«148535_j26414048870602_1_alg».proof.Proof.Payload
import proofs.«148535_j26414048870602_1_alg».proof.Proof.Spec
import Idealize.ShloMosaic.Lib.StableHlo.Run
import Idealize.ShloMosaic.Lib.Pipeline.Value

/-!
# From the grid steps to the whole result array

The grid has 8 × 4 steps. Step `(t, j)` reads rows `8192·j … 8192·j + 8191` of task `t`'s inputs, all of task `t`'s
weights and task `t`'s bias row (the bias laid out as `[8, 1, 128]` before the call), and writes the same rows of task
`t`'s result. The 32 written blocks tile the result array, and each is the matching block of the specification, so the
array ends as the specification.
-/

set_option maxRecDepth 16384

noncomputable section

namespace Cert.TaskDense

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- One stored entry is the specification's, given where the step's three blocks sit in their arrays. -/
theorem step_entry (X : FVec Ideal ⟨3, ![8, 32768, 128]⟩ .f32) (W : FVec Ideal ⟨3, ![8, 128, 128]⟩ .f32)
    (B : FVec Ideal ⟨2, ![8, 128]⟩ .f32)
    (v0 : Vec Ideal S1x8192x128 .f32) (v2 : Vec Ideal S1x128x128 .f32) (v4 : Vec Ideal S1x1x128 .f32)
    (i : (⟨3, ![8, 32768, 128]⟩ : Shape).Idx) (u : Fin 1) (r : Fin 8192) (q : Fin 128)
    (h0 : ∀ k : Fin 128, v0 (ix3 (0 : Fin 1) r k) = X (ix3 (i 0) (i 1) k))
    (h2 : ∀ k : Fin 128, v2 (ix3 (0 : Fin 1) k q) = W (ix3 (i 0) k (i 2)))
    (h4 : v4 (ix3 (0 : Fin 1) (0 : Fin 1) q) = B (ix2 (i 0) (i 2))) :
    k0_pay1 (F := Ideal) v0 v2 v4 (ix3 u r q) = G X W B i := by
  rw [pay_apply, h4]
  unfold G entry
  exact congrArg (· + B (ix2 (i 0) (i 2))) (Finset.sum_congr rfl fun k _ => by rw [h0, h2])

/-- The bias array the call is handed: the bias laid out as `[8, 1, 128]`. -/
theorem bias_laid_out (c : Dev nD) :
    (V m c main_v0 : S8x1x128.Idx → EReal)
      = broadcastInDim S8x1x128 ![0, 2] bcast_S8x128_S8x1x128_0_2 (m ((c : Thread nD τ).loc main_arg2)) := by
  dsimp only [Gen.V, Gen.hostOps0]; after_results

/-- Entry `(t, 0, o)` of the laid-out bias is entry `(t, o)` of the bias. -/
theorem bias_laid_out_apply (b : FVec Ideal S8x128 .f32) (i : S8x1x128.Idx) :
    broadcastInDim S8x1x128 ![0, 2] bcast_S8x128_S8x1x128_0_2 b i = b (ix2 (i 0) (i 2)) :=
  broadcastInDim_apply _ bcast_S8x128_S8x1x128_0_2 b i (ix2 (i 0) (i 2)) (fun a => match a with
    | ⟨0, _⟩ => by show (i 0).val = if (8 : Nat) = 1 then 0 else (i 0).val; rw [if_neg (by decide)]
    | ⟨1, _⟩ => by show (i 2).val = if (128 : Nat) = 1 then 0 else (i 2).val; rw [if_neg (by decide)])

/-- Where each window's block sits at a grid step, decided over the 32 steps: the input rows move with the result's,
    the weights and the bias follow the task only, and the lane axis is never split. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 7
    ∧ win0_3.index t (1 : Fin 3) ≤ 3
    ∧ win0_3.index t (2 : Fin 3) = 0 :=
  (by decide +kernel : ∀ t : Fin grid0.N, _)

/-- Every (task, row block) pair is some step's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- What step `t` writes back is block `t` of the specification of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1x8192x128) zero_offsets, View.ld_unit_zero (S := S1x128x128) zero_offsets,
    View.ld_unit_zero (S := S1x1x128) zero_offsets]
  obtain ⟨e00, e01, e02, e10, e11, e12, e20, e21, e22, b0, b1, e32⟩ := idx_facts t
  funext j
  show k0_pay1 (F := Ideal) (iblk m c 0 t) (iblk m c 1 t) (iblk m c 2 t) j
    = G (m ((c : Thread nD τ).loc main_arg0)) (m ((c : Thread nD τ).loc main_arg1)) (m ((c : Thread nD τ).loc main_arg2))
        (((cfg0.win 3).blk t).view.emb j)
  have hj0 : (j 0).val < 1 := (j 0).isLt
  have hj1 : (j 1).val < 8192 := (j 1).isLt
  have hj2 : (j 2).val < 128 := (j 2).isLt
  refine Eq.trans (congrArg (k0_pay1 (F := Ideal) (iblk m c 0 t) (iblk m c 1 t) (iblk m c 2 t))
    (eq_ix3 (n0 := 1) (n1 := 8192) (n2 := 128) j)) ?_
  refine step_entry (m ((c : Thread nD τ).loc main_arg0)) (m ((c : Thread nD τ).loc main_arg1)) (m ((c : Thread nD τ).loc main_arg2))
    (iblk m c 0 t) (iblk m c 1 t) (iblk m c 2 t) (((cfg0.win 3).blk t).view.emb j) (j 0) (j 1) (j 2) ?_ ?_ ?_
  · intro k
    show V m c main_arg0 (((cfg0.win 0).blk t).view.emb (ix3 (0 : Fin 1) (j 1) k)) = _
    rw [V_main_arg0]
    refine congrArg (m ((c : Thread nD τ).loc main_arg0)) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 8192 + 1 * (j 1).val = win0_3.index t (1 : Fin 3) * 8192 + 1 * (j 1).val; omega
    | ⟨2, _⟩ => show win0_0.index t (2 : Fin 3) * 128 + 1 * k.val = k.val; omega
  · intro k
    show V m c main_arg1 (((cfg0.win 1).blk t).view.emb (ix3 (0 : Fin 1) k (j 2))) = _
    rw [V_main_arg1]
    refine congrArg (m ((c : Thread nD τ).loc main_arg1)) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 128 + 1 * k.val = k.val; omega
    | ⟨2, _⟩ => show win0_1.index t (2 : Fin 3) * 128 + 1 * (j 2).val = win0_3.index t (2 : Fin 3) * 128 + 1 * (j 2).val; omega
  · show V m c main_v0 (((cfg0.win 2).blk t).view.emb (ix3 (0 : Fin 1) (0 : Fin 1) (j 2))) = _
    rw [bias_laid_out, bias_laid_out_apply]
    refine congrArg (m ((c : Thread nD τ).loc main_arg2)) (funext fun a => Fin.ext ?_)
    match a with
    | ⟨0, _⟩ => show win0_2.index t (0 : Fin 3) * 1 + 1 * 0 = win0_3.index t (0 : Fin 3) * 1 + 1 * (j 0).val; omega
    | ⟨1, _⟩ => show win0_2.index t (2 : Fin 3) * 128 + 1 * (j 2).val = win0_3.index t (2 : Fin 3) * 128 + 1 * (j 2).val; omega

/-- An index of the result array is in step `t`'s block iff each coordinate is in the block's range on its axis. -/
theorem mem_blk (t : Fin cfg0.N) (i : S8x32768x128.Idx) :
    i ∈ ((cfg0.win 3).blk t).view.set ↔ ∀ a : Fin 3, win0_3.index t a * S1x8192x128.size a ≤ (i a).val
      ∧ (i a).val < win0_3.index t a * S1x8192x128.size a + S1x8192x128.size a := by
  show i ∈ ((View.whole main_v1).slice (win0_3.rect t)).set ↔ _
  rw [View.set_slice_whole, Rect.mem_set_unit]
  exact Iff.rfl

/-- Every index of the result array is in some step's block: the step of its task and of its row's block of 8192. -/
theorem covered (i : S8x32768x128.Idx) :
    ∃ t : Fin cfg0.N, (cfg0.win 3).flush t = true ∧ i ∈ ((cfg0.win 3).blk t).view.set := by
  have hi0 : (i 0).val < 8 := (i 0).isLt
  have hi1 : (i 1).val < 32768 := (i 1).isLt
  have hi2 : (i 2).val < 128 := (i 2).isLt
  obtain ⟨t, ht⟩ := idx_onto ⟨(i 0).val, hi0⟩ ⟨(i 1).val / 8192, by omega⟩
  have q0 : win0_3.index t (0 : Fin 3) = (i 0).val := congrFun ht 0
  have q1 : win0_3.index t (1 : Fin 3) = (i 1).val / 8192 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8192 ≤ (i 1).val ∧ (i 1).val < win0_3.index t (1 : Fin 3) * 8192 + 8192; omega
  | ⟨2, _⟩ => show win0_3.index t (2 : Fin 3) * 128 ≤ (i 2).val ∧ (i 2).val < win0_3.index t (2 : Fin 3) * 128 + 128; omega

/-- The result array after the run is the specification of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: the result at the specification, the arguments unchanged. -/
theorem kernel_run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.TaskDense

end
-- ==== Proof.RefValue.lean ====
import proofs.«148535_j26414048870602_1_alg».proof.Proof.Gen.ReferenceIdeal.Read
import proofs.«148535_j26414048870602_1_alg».proof.Proof.Spec

/-!
# The reference, entry by entry

The reference contracts the last axis of the inputs with the middle axis of the weights, task by task (the task axis
is a batch axis of the contraction), and adds the bias after laying it out as `[8, 1, 128]` and repeating it along the
row axis. Read at entry `(t, r, o)` this is `(∑ k, x[t, r, k] · w[t, k, o]) + b[t, o]`.
-/

noncomputable section

namespace Cert.TaskDense

open Idealize.ShloMosaic Idealize.ShloMosaic.ValueIdx Cert.ReferenceIdeal Cert.ReferenceIdeal.Gen Cert.ReferenceIdeal.Read

/-- The contraction reads the inputs at `(t, r, k)`. -/
theorem ref_lhs_idx (i : S8x32768x128.Idx) (k : Fin 128) : lidx_main_v0 i k = ix3 (i 0) (i 1) k :=
  funext fun a => by match a with | ⟨0, _⟩ => rfl | ⟨1, _⟩ => rfl | ⟨2, _⟩ => rfl

/-- The contraction reads the weights at `(t, k, o)`. -/
theorem ref_rhs_idx (i : S8x32768x128.Idx) (k : Fin 128) : ridx_main_v0 i k = ix3 (i 0) k (i 2) :=
  funext fun a => by match a with | ⟨0, _⟩ => rfl | ⟨1, _⟩ => rfl | ⟨2, _⟩ => rfl

/-- The two layout steps of the bias together read it at `(t, o)`. -/
theorem ref_bias_idx (i : S8x32768x128.Idx) : idx_main_v1 (idx_main_v2 i) = ix2 (i 0) (i 2) :=
  funext fun a => by match a with | ⟨0, _⟩ => rfl | ⟨1, _⟩ => rfl

/-- The reference's result is the specification. -/
theorem ref_eq (x0 : (⟨S8x32768x128, .f32⟩ : BufTy).Contents (Elt Ideal)) (x1 : (⟨S8x128x128, .f32⟩ : BufTy).Contents (Elt Ideal))
    (x2 : (⟨S8x128, .f32⟩ : BufTy).Contents (Elt Ideal)) :
    val_main_v3 (F := Ideal) x0 x1 x2 = G x0 x1 x2 := by
  funext i
  rw [val_main_v3_apply, val_main_v0_apply, val_main_v2_apply, val_main_v1_apply]
  simp only [ref_lhs_idx, ref_rhs_idx, ref_bias_idx]
  rfl

end Cert.TaskDense

end
-- ==== Proof.lean ====
/-
  Eight dense layers side by side: `out[t] = inputs[t] · w[t] + b[t]` for `t = 0 … 7`, with `inputs[t] : [32768, 128]`,
  `w[t] : [128, 128]`, `b[t] : [128]`.

  The kernel walks a grid of 8 × 4 steps. Step `(t, j)` takes rows `8192·j … 8192·j + 8191` of task `t`'s inputs, task
  `t`'s weights and task `t`'s bias row, narrows the two matrices to bf16, multiplies them into a zero f32 accumulator, adds
  the bias to every row and writes the block back. The reference is one contraction batched over the task axis plus
  the bias repeated along the rows.

  On the extended reals a change of float format is the identity and a product into a zero accumulator is the plain
  sum, so both programs hold, at entry `(t, r, o)`, the value `(∑ k, inputs[t, r, k] · w[t, k, o]) + b[t, o]`
  (`Cert.TaskDense.G`, Proof/Spec.lean): the kernel because each step stores the matching block of it
  (Proof/Payload.lean) and the 32 blocks tile the array (Proof/Blocks.lean), the reference by reading its four operations
  at an entry (Proof/RefValue.lean). The two sums have the same terms in the same order, so nothing has to be finite.
  The kernel's idealization rewrote no operation, so there is nothing to preserve.
-/
import proofs.«148535_j26414048870602_1_alg».proof.Defs
import proofs.«148535_j26414048870602_1_alg».proof.Proof.Gen.Kernel
import proofs.«148535_j26414048870602_1_alg».proof.Proof.Gen.Kernel.Frame
import proofs.«148535_j26414048870602_1_alg».proof.Proof.Gen.KernelIdeal
import proofs.«148535_j26414048870602_1_alg».proof.Proof.Gen.KernelIdeal.Frame
import proofs.«148535_j26414048870602_1_alg».proof.Proof.Gen.KernelIdeal.Value
import proofs.«148535_j26414048870602_1_alg».proof.Proof.Gen.ReferenceIdeal
import proofs.«148535_j26414048870602_1_alg».proof.Proof.Gen.ReferenceIdeal.Run
import proofs.«148535_j26414048870602_1_alg».proof.Proof.Gen.ReferenceIdeal.Read
import proofs.«148535_j26414048870602_1_alg».proof.Proof.Gen.Pre_finite_inputs
import proofs.«148535_j26414048870602_1_alg».proof.Proof.Blocks
import proofs.«148535_j26414048870602_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `(∑ k, inputs[t, r, k] · w[t, k, o]) + b[t, o]` of their arguments, and the
    arguments agree. -/
theorem algebraic : Cert.algebraic_KernelIdeal_ReferenceIdeal := by
  intro m ρ m' ρ' _ hagree
  refine ⟨_, Cert.TaskDense.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.TaskDense.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
